-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x3 : Shape := ⟨3, ![32, 1024, 3]⟩
abbrev S300x3 : Shape := ⟨2, ![300, 3]⟩
abbrev S300x1 : Shape := ⟨2, ![300, 1]⟩
abbrev S_ : Shape := ⟨0, ![]⟩

class Facts : Prop where
  bcast_S_S32x1024x3 : S_.BroadcastsInDim S32x1024x3 (![] : Fin 0 → Fin S32x1024x3.rank)
  reducesTo_S32x1024x3_S_d0_1_2 : S32x1024x3.ReducesTo [0, 1, 2] S_
  h_S_ : 0 < S_.numel
  bcast_S_S300x3 : S_.BroadcastsInDim S300x3 (![] : Fin 0 → Fin S300x3.rank)
  reducesTo_S300x3_S_d0_1 : S300x3.ReducesTo [0, 1] S_
  bcast_S_S300x1 : S_.BroadcastsInDim S300x1 (![] : Fin 0 → Fin S300x1.rank)
  reducesTo_S300x1_S_d0_1 : S300x1.ReducesTo [0, 1] S_

variable [Facts]

def fn {F : FTy → Type} [FloatOps F] (main_arg0 : FVec F S32x1024x3 .f32) (main_arg1 : FVec F S300x3 .f32) (main_arg2 : FVec F S300x1 .f32) : IVec S_ 1 :=
  let main_v0 : FVec F S32x1024x3 .f32 := Host.absf main_arg0
  let main_cst : FVec F S_ .f32 := constant S_ .f32 0x7F800000#32
  let main_v1 : FVec F S32x1024x3 .f32 := broadcastInDim S32x1024x3 ![] bcast_S_S32x1024x3 main_cst
  let main_v2 : IVec S32x1024x3 1 := cmpf .olt main_v0 main_v1
  let main_c : IVec S_ 1 := constantI S_ 1 1#1
  let main_v3 : IVec S_ 1 := (fun x v => Host.reduce IntOp.andi x v reducesTo_S32x1024x3_S_d0_1_2 h_S_) main_v2 main_c
  let main_v4 : FVec F S300x3 .f32 := Host.absf main_arg1
  let main_cst_0 : FVec F S_ .f32 := constant S_ .f32 0x7F800000#32
  let main_v5 : FVec F S300x3 .f32 := broadcastInDim S300x3 ![] bcast_S_S300x3 main_cst_0
  let main_v6 : IVec S300x3 1 := cmpf .olt main_v4 main_v5
  let main_c_1 : IVec S_ 1 := constantI S_ 1 1#1
  let main_v7 : IVec S_ 1 := (fun x v => Host.reduce IntOp.andi x v reducesTo_S300x3_S_d0_1 h_S_) main_v6 main_c_1
  let main_v8 : IVec S_ 1 := andi main_v3 main_v7
  let main_v9 : FVec F S300x1 .f32 := Host.absf main_arg2
  let main_cst_2 : FVec F S_ .f32 := constant S_ .f32 0x7F800000#32
  let main_v10 : FVec F S300x1 .f32 := broadcastInDim S300x1 ![] bcast_S_S300x1 main_cst_2
  let main_v11 : IVec S300x1 1 := cmpf .olt main_v9 main_v10
  let main_c_3 : IVec S_ 1 := constantI S_ 1 1#1
  let main_v12 : IVec S_ 1 := (fun x v => Host.reduce IntOp.andi x v reducesTo_S300x1_S_d0_1 h_S_) main_v11 main_c_3
  let main_v13 : IVec S_ 1 := andi main_v8 main_v12
  main_v13
-- ==== Kernel.lean ====
abbrev S32x1024x3 : Shape := ⟨3, ![32, 1024, 3]⟩
abbrev S300x3 : Shape := ⟨2, ![300, 3]⟩
abbrev S300x1 : Shape := ⟨2, ![300, 1]⟩
abbrev S32x1024x300 : Shape := ⟨3, ![32, 1024, 300]⟩
abbrev S1x1024x3 : Shape := ⟨3, ![1, 1024, 3]⟩
abbrev S1x1024x300 : Shape := ⟨3, ![1, 1024, 300]⟩
abbrev S1024x3 : Shape := ⟨2, ![1024, 3]⟩
abbrev S1024x1 : Shape := ⟨2, ![1024, 1]⟩
abbrev S300 : Shape := ⟨1, ![300]⟩
abbrev S1x300 : Shape := ⟨2, ![1, 300]⟩
abbrev S1024x300 : Shape := ⟨2, ![1024, 300]⟩

abbrev nBuf : Space → Nat
  | .hbm => 4
  | .vmem => 6
  | .smem => 0
  | _ => 0

abbrev bufTy : (tb : Table) → Fin (tcTables nBuf tb) → BufTy
  | .hbm, ⟨0, _⟩ => ⟨S32x1024x3, .f32⟩
  | .hbm, ⟨1, _⟩ => ⟨S300x3, .f32⟩
  | .hbm, ⟨2, _⟩ => ⟨S300x1, .f32⟩
  | .hbm, ⟨3, _⟩ => ⟨S32x1024x300, .f32⟩
  | .local _ .vmem, ⟨0, _⟩ => ⟨S1x1024x3, .f32⟩
  | .local _ .vmem, ⟨1, _⟩ => ⟨S1x1024x3, .f32⟩
  | .local _ .vmem, ⟨2, _⟩ => ⟨S300x3, .f32⟩
  | .local _ .vmem, ⟨3, _⟩ => ⟨S300x1, .f32⟩
  | .local _ .vmem, ⟨4, _⟩ => ⟨S1x1024x300, .f32⟩
  | .local _ .vmem, ⟨5, _⟩ => ⟨S1x1024x300, .f32⟩
  | _, _ => ⟨S32x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S300x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S300x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x300 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S300x3_S300x3_0_0 : ∀ a, (![0, 0] : Fin 2 → Nat) a + S300x3.size a ≤ S300x3.size a
  h_S300x3 : 0 < S300x3.numel
  inb_S300x1_S300x1_0_0 : ∀ a, (![0, 0] : Fin 2 → Nat) a + S300x1.size a ≤ S300x1.size a
  h_S300x1 : 0 < S300x1.numel
  slices_S1024x3_o0_0_S1024x1 : S1024x3.Slices ![0, 0] S1024x1
  slices_S300x3_o0_0_S300x1 : S300x3.Slices ![0, 0] S300x1
  shapeCasts_S300x1_S300 : S300x1.ShapeCasts S300
  shapeCasts_S300_S1x300 : S300.ShapeCasts S1x300
  broadcasts_S1024x1_S1024x300 : S1024x1.Broadcasts S1024x300
  broadcasts_S1x300_S1024x300 : S1x300.Broadcasts S1024x300
  slices_S1024x3_o0_1_S1024x1 : S1024x3.Slices ![0, 1] S1024x1
  slices_S300x3_o0_1_S300x1 : S300x3.Slices ![0, 1] S300x1
  slices_S1024x3_o0_2_S1024x1 : S1024x3.Slices ![0, 2] S1024x1
  slices_S300x3_o0_2_S300x1 : S300x3.Slices ![0, 2] S300x1
  inb_S1x1024x300_S1x1024x300_0_0_0 : ∀ a, (![0, 0, 0] : Fin 3 → Nat) a + S1x1024x300.size a ≤ S1x1024x300.size a
  h_S1x1024x300 : 0 < S1x1024x300.numel
  shapeCasts_S1x1024x300_S1024x300 : S1x1024x300.ShapeCasts S1024x300
  shapeCasts_S1024x300_S1x1024x300 : S1024x300.ShapeCasts S1x1024x300
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S32x1024x3.size a
  hwx0_0 : ∀ i : grid0.Coords, EltTy.bits .f32 = 32 ∨ (Rect.block (s := S32x1024x3) S1x1024x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S300x3.size a ≤ S300x3.size a
  hwx0_1 : ∀ i : grid0.Coords, EltTy.bits .f32 = 32 ∨ (Rect.block (s := S300x3) S300x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S300x1.size a ≤ S300x1.size a
  hwx0_2 : ∀ i : grid0.Coords, EltTy.bits .f32 = 32 ∨ (Rect.block (s := S300x1) S300x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x300.size a ≤ S32x1024x300.size a
  hwx0_3 : ∀ i : grid0.Coords, EltTy.bits .f32 = 32 ∨ (Rect.block (s := S32x1024x300) S1x1024x300.size (cc0_transform_3 i) (hinb0_3 i)).WholeWords (EltTy.packing .f32)

variable [Facts₀]

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S300x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S300x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024x300.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x1024x3 : Shape := ⟨3, ![32, 1024, 3]⟩
abbrev S300x3 : Shape := ⟨2, ![300, 3]⟩
abbrev S300x1 : Shape := ⟨2, ![300, 1]⟩
abbrev S_ : Shape := ⟨0, ![]⟩
abbrev S32x1024 : Shape := ⟨2, ![32, 1024]⟩
abbrev S300 : Shape := ⟨1, ![300]⟩
abbrev S32x1024x300 : Shape := ⟨3, ![32, 1024, 300]⟩
abbrev S32x1024x1 : Shape := ⟨3, ![32, 1024, 1]⟩
abbrev S1x1x300 : Shape := ⟨3, ![1, 1, 300]⟩

abbrev nBuf : Space → Nat
  | .hbm => 29
  | .vmem => 0
  | .smem => 0
  | _ => 0

abbrev bufTy : (tb : Table) → Fin (tcTables nBuf tb) → BufTy
  | .hbm, ⟨0, _⟩ => ⟨S32x1024x3, .f32⟩
  | .hbm, ⟨1, _⟩ => ⟨S300x3, .f32⟩
  | .hbm, ⟨2, _⟩ => ⟨S300x1, .f32⟩
  | .hbm, ⟨3, _⟩ => ⟨S32x1024x3, .f32⟩
  | .hbm, ⟨4, _⟩ => ⟨S_, .f32⟩
  | .hbm, ⟨5, _⟩ => ⟨S32x1024, .f32⟩
  | .hbm, ⟨6, _⟩ => ⟨S300x3, .f32⟩
  | .hbm, ⟨7, _⟩ => ⟨S_, .f32⟩
  | .hbm, ⟨8, _⟩ => ⟨S300, .f32⟩
  | .hbm, ⟨9, _⟩ => ⟨S32x1024x300, .f32⟩
  | .hbm, ⟨10, _⟩ => ⟨S32x1024x1, .f32⟩
  | .hbm, ⟨11, _⟩ => ⟨S_, .f32⟩
  | .hbm, ⟨12, _⟩ => ⟨S32x1024x300, .f32⟩
  | .hbm, ⟨13, _⟩ => ⟨S32x1024x300, .f32⟩
  | .hbm, ⟨14, _⟩ => ⟨S32x1024x300, .f32⟩
  | .hbm, ⟨15, _⟩ => ⟨S32x1024x300, .f32⟩
  | .hbm, ⟨16, _⟩ => ⟨S1x1x300, .f32⟩
  | .hbm, ⟨17, _⟩ => ⟨S32x1024x300, .f32⟩
  | .hbm, ⟨18, _⟩ => ⟨S32x1024x300, .f32⟩
  | .hbm, ⟨19, _⟩ => ⟨S300, .f32⟩
  | .hbm, ⟨20, _⟩ => ⟨S300, .f32⟩
  | .hbm, ⟨21, _⟩ => ⟨S_, .f32⟩
  | .hbm, ⟨22, _⟩ => ⟨S300, .f32⟩
  | .hbm, ⟨23, _⟩ => ⟨S300, .f32⟩
  | .hbm, ⟨24, _⟩ => ⟨S1x1x300, .f32⟩
  | .hbm, ⟨25, _⟩ => ⟨S1x1x300, .f32⟩
  | .hbm, ⟨26, _⟩ => ⟨S32x1024x300, .f32⟩
  | .hbm, ⟨27, _⟩ => ⟨S32x1024x300, .f32⟩
  | .hbm, ⟨28, _⟩ => ⟨S32x1024x300, .f32⟩
  | _, _ => ⟨S32x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]

class Facts₀ : Prop where
  reducesTo_S32x1024x3_S32x1024_d2 : S32x1024x3.ReducesTo [2] S32x1024
  h_S_ : 0 < S_.numel
  reducesTo_S300x3_S300_d1 : S300x3.ReducesTo [1] S300
  bcast_S32x1024_S32x1024x1_0_1 : S32x1024.BroadcastsInDim S32x1024x1 (![0, 1] : Fin 2 → Fin S32x1024x1.rank)
  bcast_S_S32x1024x300 : S_.BroadcastsInDim S32x1024x300 (![] : Fin 0 → Fin S32x1024x300.rank)
  bcast_S32x1024x1_S32x1024x300_0_1_2 : S32x1024x1.BroadcastsInDim S32x1024x300 (![0, 1, 2] : Fin 3 → Fin S32x1024x300.rank)
  bcast_S300_S1x1x300_2 : S300.BroadcastsInDim S1x1x300 (![2] : Fin 1 → Fin S1x1x300.rank)
  bcast_S1x1x300_S32x1024x300_0_1_2 : S1x1x300.BroadcastsInDim S32x1024x300 (![0, 1, 2] : Fin 3 → Fin S32x1024x300.rank)
  shapeCasts_S300x1_S300 : S300x1.ShapeCasts S300
  bcast_S_S300 : S_.BroadcastsInDim S300 (![] : Fin 0 → Fin S300.rank)
  dot_S32x1024x3_S300x3_S32x1024x300_2_1_01_0_n_n_wf : DotDims.WF S32x1024x3 S300x3 S32x1024x300 [2] [1] [0, 1] [0] [] []

variable [Facts₀]

def dot_S32x1024x3_S300x3_S32x1024x300_2_1_01_0_n_n : DotDims S32x1024x3 S300x3 S32x1024x300 where
  lhsContracting := [2]
  rhsContracting := [1]
  lhsNonContracting := [0, 1]
  rhsNonContracting := [0]
  lhsBatch := []
  rhsBatch := []
  wf := dot_S32x1024x3_S300x3_S32x1024x300_2_1_01_0_n_n_wf

class Facts : Prop extends Facts₀ where

variable [Facts]
-- ==== Proof.RbfSpec.lean ====
/-
  A Gaussian radial-basis layer over the extended reals.

  A point x ∈ E³ (E the extended reals) meets a unit with centre c ∈ E³ and width s ∈ E; the unit answers
      exp( −(1 / s²) · d(x, c) ),        d(x, c) = Σ_f x_f² − 2 · Σ_f x_f c_f + Σ_f c_f²,
  the squared distance in its expanded form. The layer applies every one of 300 units to every one of
  32 × 1024 points: the array at (b, s, k) is the answer of unit k to point (b, s).

  Two spellings of one answer are met and both are shown equal to it here, over abstract triples:
  the sums written out term by term with the negation spelt 0 − · , and the sums each begun from a
  leading zero with the negation spelt − · . Only  0 − a = −a,  0 + a = a  and the sum over three
  indices as its three terms are used; none needs the operands to be finite, so nothing is assumed of them.
-/
import Idealize.ShloMosaic.PureOps.Ideal.Laws
import Idealize.ShloMosaic.Lib.ValueIdx

noncomputable section

open scoped BigOperators

namespace Cert.Rbf

open Idealize.ShloMosaic Idealize.ShloMosaic.ValueIdx

/-- The number one as both programs write it. -/
abbrev one : EReal := Ideal.ofBits .f32 0x3F800000#32
/-- The number two as both programs write it. -/
abbrev two : EReal := Ideal.ofBits .f32 0x40000000#32

/-- The squared distance of a point from a centre, expanded: |x|² − 2 x·c + |c|². -/
def sqDist (x c : Fin 3 → EReal) : EReal :=
  (∑ f : Fin 3, x f * x f) - two * (∑ f : Fin 3, x f * c f) + ∑ f : Fin 3, c f * c f

/-- What a unit of centre c and width s answers to the point x. -/
def response (x c : Fin 3 → EReal) (s : EReal) : EReal :=
  Ideal.exp (-(Ideal.div one (s * s)) * sqDist x c)

/-- The answer with every sum written out and the sign change spelt as a difference from zero. -/
theorem response_termwise (x c : Fin 3 → EReal) (s : EReal) :
    Ideal.exp ((0 - Ideal.div one (s * s))
        * ((x 0 * x 0 + x 1 * x 1 + x 2 * x 2) - two * (x 0 * c 0 + x 1 * c 1 + x 2 * c 2)
            + (c 0 * c 0 + c 1 * c 1 + c 2 * c 2)))
      = response x c s := by
  simp only [response, sqDist, Fin.sum_univ_three, zero_sub]

/-- The answer with each sum of squares begun from zero. -/
theorem response_from_zero (x c : Fin 3 → EReal) (s : EReal) :
    Ideal.exp (-(Ideal.div one (s * s))
        * ((0 + ∑ f : Fin 3, x f * x f) - two * (∑ f : Fin 3, x f * c f) + (0 + ∑ f : Fin 3, c f * c f)))
      = response x c s := by
  simp only [response, sqDist, zero_add]

/-- The layer at point (b, s) and unit k: the point is row (b, s) of the 32 × 1024 × 3 array of points,
    the centre row k of the 300 × 3 array of centres, the width entry (k, 0) of the 300 × 1 column of widths. -/
def at3 (x : (⟨3, ![32, 1024, 3]⟩ : Shape).Idx → EReal) (c : (⟨2, ![300, 3]⟩ : Shape).Idx → EReal)
    (σ : (⟨2, ![300, 1]⟩ : Shape).Idx → EReal) (b : Fin 32) (s : Fin 1024) (k : Fin 300) : EReal :=
  response (fun f : Fin 3 => x (ix3 b s f)) (fun f : Fin 3 => c (ix2 k f)) (σ (ix2 k (0 : Fin 1)))

/-- The whole layer: a 32 × 1024 × 300 array, one answer per point and unit. -/
def layer (x : (⟨3, ![32, 1024, 3]⟩ : Shape).Idx → EReal) (c : (⟨2, ![300, 3]⟩ : Shape).Idx → EReal)
    (σ : (⟨2, ![300, 1]⟩ : Shape).Idx → EReal) : (⟨3, ![32, 1024, 300]⟩ : Shape).Idx → EReal :=
  fun i => at3 x c σ (i 0) (i 1) (i 2)

theorem layer_ix3 (x : (⟨3, ![32, 1024, 3]⟩ : Shape).Idx → EReal) (c : (⟨2, ![300, 3]⟩ : Shape).Idx → EReal)
    (σ : (⟨2, ![300, 1]⟩ : Shape).Idx → EReal) (b : Fin 32) (s : Fin 1024) (k : Fin 300) :
    layer x c σ (ix3 b s k) = at3 x c σ b s k := rfl

end Cert.Rbf

end
-- ==== Proof.KernelLayer.lean ====
/-
  The kernel's result array is the layer of radial-basis units.

  The grid has 32 points, one per batch b. Point b stages the 1 × 1024 × 3 slab of the points array at batch b, the whole
  300 × 3 array of centres and the whole 300 × 1 column of widths, and stores one 1 × 1024 × 300 slab: at (0, s, k)
      exp( (0 − 1 / σ_k²) · ( (x₀² + x₁² + x₂²) − 2 (x₀c₀ + x₁c₁ + x₂c₂) + (c₀² + c₁² + c₂²) ) ),
  x the row s of the staged slab and c the row k of the centres: the layer's answer with its sums written out.
  The 32 slabs tile the result array along its first axis, slab b at batch b, so the array after the run is the layer
  of the three argument arrays.
-/
import proofs.«162328_j89026082111666_1_alg».proof.Proof.Gen.KernelIdeal.Value
import proofs.«162328_j89026082111666_1_alg».proof.Proof.RbfSpec
import Idealize.ShloMosaic.Lib.Pipeline.Value
import Idealize.ShloMosaic.Lib.ValueIdx

noncomputable section

open scoped BigOperators

namespace Cert.KernelIdeal.Layer

open Cert.KernelIdeal Cert.KernelIdeal.Gen Idealize.ShloMosaic Idealize.ShloMosaic.TcCoe Idealize.SL.Sem
open Idealize.ShloMosaic.ValueIdx
open Idealize.ShloMosaic.Pipeline (Dat)

/-! ## One slab, entry by entry -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- The stored slab as a function of the three staged blocks: entry (0, r, q) is the answer of the unit whose centre
    is row q of the centres block and whose width is entry (q, 0) of the widths block, to row r of the points block. -/
theorem slab_at (X : Vec Ideal S1x1024x3 .f32) (C : Vec Ideal S300x3 .f32) (Sg : Vec Ideal S300x1 .f32)
    (r : Fin 1024) (q : Fin 300) :
    out0_3 (F := Ideal) X C Sg (ix3 (0 : Fin 1) r q)
      = Cert.Rbf.response (fun f : Fin 3 => X (ix3 (0 : Fin 1) r f)) (fun f : Fin 3 => C (ix2 q f)) (Sg (ix2 q (0 : Fin 1))) := by
  unfold out0_3
  rw [Value.canon3_eq]
  simp only [View.ld_unit_zero (S := S1x1024x3) zeros3, View.ld_unit_zero (S := S300x3) zeros2,
    View.ld_unit_zero (S := S300x1) zeros2]
  rw [← Cert.Rbf.response_termwise]
  simp only [Ideal.exp_def, Ideal.mulf_def, Ideal.subf_def, Ideal.divf_def, Ideal.addf_def, Ideal.ofBits_zero_f32,
    Ideal.ofBits_def, Cert.Rbf.one, Cert.Rbf.two]
  congr <;>
    (funext a
     first
       | (match a with | ⟨0, _⟩ => rfl | ⟨1, _⟩ => rfl | ⟨2, _⟩ => rfl)
       | (match a with | ⟨0, _⟩ => rfl | ⟨1, _⟩ => rfl))

/-! ## The slabs tile the result array -/

variable (m : (ℓ : Loc nD τ sig) → Buf (Elt Ideal) ℓ) (ρ : Dev nD → PrngReg)

/-- The index maps, decided over the 32 grid points: the points' slab and the result's slab sit at the same batch,
    every other block coordinate is zero. -/
theorem block_coords : ∀ t : Fin cfg0.N,
    win0_0.index t (0 : Fin 3) = win0_3.index t (0 : Fin 3)
    ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 3) = 0 ∧ win0_3.index t (2 : Fin 3) = 0
    ∧ win0_3.index t (0 : Fin 3) < 32 :=
  (by decide +kernel : ∀ t : Fin grid0.N, _)

/-- Every batch is some grid point's. -/
theorem batch_onto : ∀ b : Fin 32, ∃ t : Fin cfg0.N, win0_3.index t = ![b.val, 0, 0] :=
  (by decide +kernel : ∀ b : Fin 32, ∃ t : Fin grid0.N, win0_3.index t = ![b.val, 0, 0])

/-- Row r of the points' slab at point t is row (b, r) of the points array, b the point's batch. -/
theorem points_row (c : Dev nD) (t : Fin cfg0.N) (b : Fin 32) (hb : b.val = win0_3.index t (0 : Fin 3)) (r : Fin 1024) (f : Fin 3) :
    iblk m c 0 t (ix3 (0 : Fin 1) r f) = V m c main_arg0 (ix3 b r f) := by
  obtain ⟨e0, e1, e2, -⟩ := block_coords t
  show V m c main_arg0 (((cfg0.win 0).blk t).view.emb (ix3 (0 : Fin 1) r f)) = _
  refine congrArg (V m c main_arg0) (funext fun a => Fin.ext ?_)
  match a with
  | ⟨0, _⟩ => show win0_0.index t (0 : Fin 3) * 1 + 1 * 0 = b.val; omega
  | ⟨1, _⟩ => show win0_0.index t (1 : Fin 3) * 1024 + 1 * r.val = r.val; omega
  | ⟨2, _⟩ => show win0_0.index t (2 : Fin 3) * 3 + 1 * f.val = f.val; omega

/-- The centres' block at every point is the centres array. -/
theorem centres_row (c : Dev nD) (t : Fin cfg0.N) (q : Fin 300) (f : Fin 3) :
    iblk m c 1 t (ix2 q f) = V m c main_arg1 (ix2 q f) := by
  obtain ⟨-, -, -, e0, e1, -⟩ := block_coords t
  show V m c main_arg1 (((cfg0.win 1).blk t).view.emb (ix2 q f)) = _
  refine congrArg (V m c main_arg1) (funext fun a => Fin.ext ?_)
  match a with
  | ⟨0, _⟩ => show win0_1.index t (0 : Fin 2) * 300 + 1 * q.val = q.val; omega
  | ⟨1, _⟩ => show win0_1.index t (1 : Fin 2) * 3 + 1 * f.val = f.val; omega

/-- The widths' block at every point is the widths column. -/
theorem widths_entry (c : Dev nD) (t : Fin cfg0.N) (q : Fin 300) :
    iblk m c 2 t (ix2 q (0 : Fin 1)) = V m c main_arg2 (ix2 q (0 : Fin 1)) := by
  obtain ⟨-, -, -, -, -, e0, e1, -⟩ := block_coords t
  show V m c main_arg2 (((cfg0.win 2).blk t).view.emb (ix2 q (0 : Fin 1))) = _
  refine congrArg (V m c main_arg2) (funext fun a => Fin.ext ?_)
  match a with
  | ⟨0, _⟩ => show win0_2.index t (0 : Fin 2) * 300 + 1 * q.val = q.val; omega
  | ⟨1, _⟩ => show win0_2.index t (1 : Fin 2) * 1 + 1 * 0 = 0; omega

/-- What point t writes back is slab t of the layer of the argument arrays. -/
theorem flushed_eq (c : Dev nD) (t : Fin cfg0.N) :
    (dats m 0 c).flushed 3 t
      = ((cfg0.win 3).blk t).view.read (Elt Ideal) (Cert.Rbf.layer (V m c main_arg0) (V m c main_arg1) (V m c main_arg2)) := by
  rw [Value.flushed3]
  obtain ⟨-, -, -, -, -, -, -, e1, e2, e0⟩ := block_coords t
  funext j
  obtain ⟨z, r, q, rfl⟩ : ∃ (z : Fin 1) (r : Fin 1024) (q : Fin 300), j = ix3 z r q := ⟨j 0, j 1, j 2, eq_ix3 j⟩
  obtain rfl : z = 0 := Subsingleton.elim _ _
  have hemb : ((cfg0.win 3).blk t).view.emb (ix3 (0 : Fin 1) r q) = ix3 (⟨win0_3.index t (0 : Fin 3), e0⟩ : Fin 32) r q := by
    funext a; apply Fin.ext
    match a with
    | ⟨0, _⟩ => show win0_3.index t (0 : Fin 3) * 1 + 1 * 0 = win0_3.index t (0 : Fin 3); omega
    | ⟨1, _⟩ => show win0_3.index t (1 : Fin 3) * 1024 + 1 * r.val = r.val; omega
    | ⟨2, _⟩ => show win0_3.index t (2 : Fin 3) * 300 + 1 * q.val = q.val; omega
  show out0_3 (iblk m c 0 t) (iblk m c 1 t) (iblk m c 2 t) (ix3 (0 : Fin 1) r q)
    = Cert.Rbf.layer (V m c main_arg0) (V m c main_arg1) (V m c main_arg2) (((cfg0.win 3).blk t).view.emb (ix3 (0 : Fin 1) r q))
  rw [hemb, Cert.Rbf.layer_ix3, Cert.Rbf.at3]
  refine (slab_at (iblk m c 0 t) (iblk m c 1 t) (iblk m c 2 t) r q).trans ?_
  rw [widths_entry m c t q]
  refine congrArg₂ (fun u v => Cert.Rbf.response u v _) (funext fun f => ?_) (funext fun f => ?_)
  · exact points_row m c t ⟨win0_3.index t (0 : Fin 3), e0⟩ rfl r f
  · exact centres_row m c t q f

/-- An index of the result array lies in point t's slab iff each coordinate lies in the slab's range. -/
theorem mem_slab (t : Fin cfg0.N) (i : S32x1024x300.Idx) :
    i ∈ ((cfg0.win 3).blk t).view.set ↔ ∀ a : Fin 3, win0_3.index t a * S1x1024x300.size a ≤ (i a).val
      ∧ (i a).val < win0_3.index t a * S1x1024x300.size a + S1x1024x300.size a := by
  show i ∈ ((View.whole main_v0).slice (win0_3.rect t)).set ↔ _
  rw [View.set_slice_whole, Rect.mem_set_unit]
  exact Iff.rfl

/-- Every index of the result array lies in the slab of the point at its batch. -/
theorem covered (i : S32x1024x300.Idx) :
    ∃ t : Fin cfg0.N, (cfg0.win 3).flush t = true ∧ i ∈ ((cfg0.win 3).blk t).view.set := by
  have h0 : (i 0).val < 32 := (i 0).isLt
  have h1 : (i 1).val < 1024 := (i 1).isLt
  have h2 : (i 2).val < 300 := (i 2).isLt
  obtain ⟨t, ht⟩ := batch_onto ⟨(i 0).val, h0⟩
  have q0 : win0_3.index t (0 : Fin 3) = (i 0).val := congrFun ht 0
  have q1 : win0_3.index t (1 : Fin 3) = 0 := congrFun ht 1
  have q2 : win0_3.index t (2 : Fin 3) = 0 := congrFun ht 2
  refine ⟨t, flush0_3 t, ?_⟩
  rw [mem_slab]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 300 ≤ (i 2).val ∧ (i 2).val < win0_3.index t (2 : Fin 3) * 300 + 300; omega

/-- The result array after the run is the layer of the argument arrays. -/
theorem final (c : Dev nD) :
    (dats m 0 c).arrAt 3 cfg0.N
      = Cert.Rbf.layer (m ((c : Thread nD τ).loc main_arg0)) (m ((c : Thread nD τ).loc main_arg1)) (m ((c : Thread nD τ).loc main_arg2)) :=
  (dats m 0 c).arrAt_eq_of_cover 3 _ (fun t _ => flushed_eq m c t) covered

/-- The kernel's run: it ends with the result array at the layer of the argument arrays, and these unchanged. -/
theorem run : θ_run defs (onTc (τ := τ) (main (F := Ideal))) ⟨m, fun _ => 0, ρ⟩ fun r => ∀ c : Dev nD,
      r.2.mem ((c : Thread nD τ).loc main_v0)
        = Cert.Rbf.layer (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Layer

end
-- ==== Proof.ReferenceLayer.lean ====
/-
  The reference program's result, read at one index, is the layer of radial-basis units.

  The reference forms, for every point (b, s) and unit k,
      exp( −(1 / σ_k²) · ( (0 + Σ_f x_f²) − 2 · Σ_f x_f c_kf + (0 + Σ_f c_kf²) ) ):
  the two sums of squares are reductions begun from zero, the middle sum is a product of the points
  with the transposed centres contracted over the three coordinates, and the row (b, s) of squares, the row k of
  squares and the width's reciprocal are each spread over the whole 32 × 1024 × 300 array before they meet. Followed
  back through those spreadings an entry (b, s, k) reads the point's row (b, s, ·), the centre's row (k, ·) and the
  width (k, 0), which is the layer's answer with its sums begun from zero.
-/
import proofs.«162328_j89026082111666_1_alg».proof.Proof.Gen.ReferenceIdeal.Read
import proofs.«162328_j89026082111666_1_alg».proof.Proof.RbfSpec

noncomputable section

open scoped BigOperators

namespace Cert.ReferenceIdeal.Layer

open Cert.ReferenceIdeal Cert.ReferenceIdeal.Gen Cert.ReferenceIdeal.Read
open Idealize.ShloMosaic Idealize.ShloMosaic.ValueIdx

variable (b : Fin 32) (s : Fin 1024) (k : Fin 300)

/-- The sum of a point's squares, spread over the units, reads the point's own row. -/
theorem point_row (f : Fin 3) : idx_main_v1 (idx_main_v5 (idx_main_v8 (ix3 b s k))) f = ix3 b s f :=
  funext fun a => Fin.ext (by match a with | ⟨0, _⟩ => rfl | ⟨1, _⟩ => rfl | ⟨2, _⟩ => rfl)

/-- The product's left factor at (b, s, k) is the point's row. -/
theorem product_point (f : Fin 3) : lidx_main_v4 (ix3 b s k) f = ix3 b s f :=
  funext fun a => Fin.ext (by match a with | ⟨0, _⟩ => rfl | ⟨1, _⟩ => rfl | ⟨2, _⟩ => rfl)

/-- The product's right factor at (b, s, k) is the centre's row. -/
theorem product_centre (f : Fin 3) : ridx_main_v4 (ix3 b s k) f = ix2 k f :=
  funext fun a => Fin.ext (by match a with | ⟨0, _⟩ => rfl | ⟨1, _⟩ => rfl)

/-- The sum of a centre's squares, spread over the points, reads the centre's own row. -/
theorem centre_row (f : Fin 3) : idx_main_v3 (idx_main_v10 (idx_main_v11 (ix3 b s k))) f = ix2 k f :=
  funext fun a => Fin.ext (by match a with | ⟨0, _⟩ => rfl | ⟨1, _⟩ => rfl)

/-- The width's reciprocal, spread over the points, reads the width of unit k. -/
theorem width_entry : idx_main_v13 (idx_main_v17 (idx_main_v19 (ix3 b s k))) = ix2 k (0 : Fin 1) :=
  funext fun a => Fin.ext (by
    match a with
    | ⟨0, _⟩ => exact Nat.div_one _
    | ⟨1, _⟩ => rfl)

/-- The reference's last stage is the layer, entry by entry. -/
theorem result_eq (x : (⟨S32x1024x3, .f32⟩ : BufTy).Contents (Elt Ideal)) (c : (⟨S300x3, .f32⟩ : BufTy).Contents (Elt Ideal))
    (σ : (⟨S300x1, .f32⟩ : BufTy).Contents (Elt Ideal)) :
    val_main_v21 (F := Ideal) x c σ = Cert.Rbf.layer x c σ := by
  funext i
  obtain ⟨b, s, k, rfl⟩ : ∃ (b : Fin 32) (s : Fin 1024) (k : Fin 300), i = ix3 b s k := ⟨i 0, i 1, i 2, eq_ix3 i⟩
  rw [Cert.Rbf.layer_ix3, Cert.Rbf.at3, ← Cert.Rbf.response_from_zero]
  simp only [val_main_v21_apply, val_main_v20_apply, val_main_v19_apply, val_main_v18_apply, val_main_v17_apply,
    val_main_v16_apply, val_main_v15_apply, val_main_cst_2_apply, val_main_v14_apply, val_main_v13_apply,
    val_main_v12_apply, val_main_v11_apply, val_main_v10_apply, val_main_v3_apply, val_main_cst_0_apply, val_main_v2_apply,
    val_main_v9_apply, val_main_v8_apply, val_main_v5_apply, val_main_v1_apply, val_main_cst_apply, val_main_v0_apply,
    val_main_v7_apply, val_main_v6_apply, val_main_cst_1_apply, val_main_v4_apply,
    point_row, product_point, product_centre, centre_row, width_entry,
    Ideal.hostUnary_exp_def, Ideal.mulf_def, Ideal.hostNegf_def, Ideal.negf_def, Ideal.hostDivf_def, Ideal.ofBits_def,
    Ideal.addf_def, Ideal.subf_def, Ideal.ofBits_zero_f32, Cert.Rbf.one, Cert.Rbf.two]

end Cert.ReferenceIdeal.Layer

end
-- ==== Proof.lean ====
/-
  A layer of 300 Gaussian radial-basis units applied to 32 × 1024 points of three coordinates: the Pallas kernel against
  its jnp reference, over the extended reals.

  Both programs compute, for point x = x[b, s, ·], centre c = c[k, ·] and width σ = σ[k, 0],
      exp( −(1 / σ²) · ( Σ_f x_f² − 2 · Σ_f x_f c_f + Σ_f c_f² ) )           (Proof/RbfSpec.lean).
  The kernel walks the batches, one grid point per batch, writes the three sums out term by term and spells the sign
  change 0 − · ; the slabs it stores tile the result array (Proof/KernelLayer.lean). The reference begins its two sums
  of squares from zero, takes the middle sum as one contraction and negates directly (Proof/ReferenceLayer.lean).
  The two spellings agree on every triple of extended reals — only 0 − a = −a, 0 + a = a and a three-term sum as its
  terms are used — so the inputs' finiteness is never called on. The idealization rewrote nothing in the kernel, so
  its preservation clause is empty; the three frames are the programs' runs with the result dropped.
-/
import proofs.«162328_j89026082111666_1_alg».proof.Defs
import proofs.«162328_j89026082111666_1_alg».proof.Proof.Gen.Kernel
import proofs.«162328_j89026082111666_1_alg».proof.Proof.Gen.Kernel.Skeleton
import proofs.«162328_j89026082111666_1_alg».proof.Proof.Gen.Kernel.Launch
import proofs.«162328_j89026082111666_1_alg».proof.Proof.Gen.Kernel.Points
import proofs.«162328_j89026082111666_1_alg».proof.Proof.Gen.Kernel.Frame
import proofs.«162328_j89026082111666_1_alg».proof.Proof.Gen.KernelIdeal
import proofs.«162328_j89026082111666_1_alg».proof.Proof.Gen.KernelIdeal.Skeleton
import proofs.«162328_j89026082111666_1_alg».proof.Proof.Gen.KernelIdeal.Launch
import proofs.«162328_j89026082111666_1_alg».proof.Proof.Gen.KernelIdeal.Points
import proofs.«162328_j89026082111666_1_alg».proof.Proof.Gen.KernelIdeal.Frame
import proofs.«162328_j89026082111666_1_alg».proof.Proof.Gen.ReferenceIdeal
import proofs.«162328_j89026082111666_1_alg».proof.Proof.Gen.Pre_finite_inputs
import proofs.«162328_j89026082111666_1_alg».proof.Proof.Gen.KernelIdeal.Value
import proofs.«162328_j89026082111666_1_alg».proof.Proof.Gen.ReferenceIdeal.Run
import proofs.«162328_j89026082111666_1_alg».proof.Proof.Gen.ReferenceIdeal.Read
import proofs.«162328_j89026082111666_1_alg».proof.Proof.RbfSpec
import proofs.«162328_j89026082111666_1_alg».proof.Proof.KernelLayer
import proofs.«162328_j89026082111666_1_alg».proof.Proof.ReferenceLayer
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments as they were: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the points, the centres and the widths, both programs end with the layer of those
    three arrays in their result. -/
theorem algebraic : Cert.algebraic_KernelIdeal_ReferenceIdeal := by
  intro m ρ m' ρ' _ hagree
  refine ⟨_, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.Layer.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
